-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x1024x64 : Shape := ⟨4, ![8, 16, 1024, 64]⟩
abbrev S8x1x1024x1024 : Shape := ⟨4, ![8, 1, 1024, 1024]⟩
abbrev S_ : Shape := ⟨0, ![]⟩

class Facts : Prop where
  bcast_S_S8x16x1024x64 : S_.BroadcastsInDim S8x16x1024x64 (![] : Fin 0 → Fin S8x16x1024x64.rank)
  reducesTo_S8x16x1024x64_S_d0_1_2_3 : S8x16x1024x64.ReducesTo [0, 1, 2, 3] S_
  h_S_ : 0 < S_.numel

variable [Facts]

def fn {F : FTy → Type} [FloatOps F] (main_arg0 : FVec F S8x16x1024x64 .f32) (main_arg1 : FVec F S8x16x1024x64 .f32) (main_arg2 : FVec F S8x16x1024x64 .f32) (main_arg3 : IVec S8x1x1024x1024 32) : IVec S_ 1 :=
  let main_v0 : FVec F S8x16x1024x64 .f32 := Host.absf main_arg0
  let main_cst : FVec F S_ .f32 := constant S_ .f32 0x7F800000#32
  let main_v1 : FVec F S8x16x1024x64 .f32 := broadcastInDim S8x16x1024x64 ![] bcast_S_S8x16x1024x64 main_cst
  let main_v2 : IVec S8x16x1024x64 1 := cmpf .olt main_v0 main_v1
  let main_c : IVec S_ 1 := constantI S_ 1 1#1
  let main_v3 : IVec S_ 1 := (fun x v => Host.reduce IntOp.andi x v reducesTo_S8x16x1024x64_S_d0_1_2_3 h_S_) main_v2 main_c
  let main_v4 : FVec F S8x16x1024x64 .f32 := Host.absf main_arg1
  let main_cst_0 : FVec F S_ .f32 := constant S_ .f32 0x7F800000#32
  let main_v5 : FVec F S8x16x1024x64 .f32 := broadcastInDim S8x16x1024x64 ![] bcast_S_S8x16x1024x64 main_cst_0
  let main_v6 : IVec S8x16x1024x64 1 := cmpf .olt main_v4 main_v5
  let main_c_1 : IVec S_ 1 := constantI S_ 1 1#1
  let main_v7 : IVec S_ 1 := (fun x v => Host.reduce IntOp.andi x v reducesTo_S8x16x1024x64_S_d0_1_2_3 h_S_) main_v6 main_c_1
  let main_v8 : IVec S_ 1 := andi main_v3 main_v7
  let main_v9 : FVec F S8x16x1024x64 .f32 := Host.absf main_arg2
  let main_cst_2 : FVec F S_ .f32 := constant S_ .f32 0x7F800000#32
  let main_v10 : FVec F S8x16x1024x64 .f32 := broadcastInDim S8x16x1024x64 ![] bcast_S_S8x16x1024x64 main_cst_2
  let main_v11 : IVec S8x16x1024x64 1 := cmpf .olt main_v9 main_v10
  let main_c_3 : IVec S_ 1 := constantI S_ 1 1#1
  let main_v12 : IVec S_ 1 := (fun x v => Host.reduce IntOp.andi x v reducesTo_S8x16x1024x64_S_d0_1_2_3 h_S_) main_v11 main_c_3
  let main_v13 : IVec S_ 1 := andi main_v8 main_v12
  main_v13
-- ==== Kernel.lean ====
abbrev S8x16x1024x64 : Shape := ⟨4, ![8, 16, 1024, 64]⟩
abbrev S8x1x1024x1024 : Shape := ⟨4, ![8, 1, 1024, 1024]⟩
abbrev S8x16x1024x1024 : Shape := ⟨4, ![8, 16, 1024, 1024]⟩
abbrev S1x1x1024x64 : Shape := ⟨4, ![1, 1, 1024, 64]⟩
abbrev S1x1x1024x1024 : Shape := ⟨4, ![1, 1, 1024, 1024]⟩
abbrev S1024x64 : Shape := ⟨2, ![1024, 64]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 12
  | .smem => 0
  | _ => 0

abbrev bufTy : (tb : Table) → Fin (tcTables nBuf tb) → BufTy
  | .hbm, ⟨0, _⟩ => ⟨S8x16x1024x64, .f32⟩
  | .hbm, ⟨1, _⟩ => ⟨S8x16x1024x64, .f32⟩
  | .hbm, ⟨2, _⟩ => ⟨S8x16x1024x64, .f32⟩
  | .hbm, ⟨3, _⟩ => ⟨S8x1x1024x1024, .i32⟩
  | .hbm, ⟨4, _⟩ => ⟨S8x16x1024x64, .f32⟩
  | .hbm, ⟨5, _⟩ => ⟨S8x16x1024x1024, .f32⟩
  | .local _ .vmem, ⟨0, _⟩ => ⟨S1x1x1024x64, .f32⟩
  | .local _ .vmem, ⟨1, _⟩ => ⟨S1x1x1024x64, .f32⟩
  | .local _ .vmem, ⟨2, _⟩ => ⟨S1x1x1024x64, .f32⟩
  | .local _ .vmem, ⟨3, _⟩ => ⟨S1x1x1024x64, .f32⟩
  | .local _ .vmem, ⟨4, _⟩ => ⟨S1x1x1024x64, .f32⟩
  | .local _ .vmem, ⟨5, _⟩ => ⟨S1x1x1024x64, .f32⟩
  | .local _ .vmem, ⟨6, _⟩ => ⟨S1x1x1024x1024, .i32⟩
  | .local _ .vmem, ⟨7, _⟩ => ⟨S1x1x1024x1024, .i32⟩
  | .local _ .vmem, ⟨8, _⟩ => ⟨S1x1x1024x64, .f32⟩
  | .local _ .vmem, ⟨9, _⟩ => ⟨S1x1x1024x64, .f32⟩
  | .local _ .vmem, ⟨10, _⟩ => ⟨S1x1x1024x1024, .f32⟩
  | .local _ .vmem, ⟨11, _⟩ => ⟨S1x1x1024x1024, .f32⟩
  | _, _ => ⟨S8x16x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  bitsLt_bf16_f32 : FTy.bits .bf16 < FTy.bits .f32
  shapeCasts_S1024x64_S1x1x1024x64 : S1024x64.ShapeCasts S1x1x1024x64
  shapeCasts_S1024x1024_S1x1x1024x1024 : S1024x1024.ShapeCasts S1x1x1024x1024
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x64.size a ≤ S8x16x1024x64.size a
  hwx0_0 : ∀ i : grid0.Coords, EltTy.bits .f32 = 32 ∨ (Rect.block (s := S8x16x1024x64) S1x1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x64.size a ≤ S8x16x1024x64.size a
  hwx0_1 : ∀ i : grid0.Coords, EltTy.bits .f32 = 32 ∨ (Rect.block (s := S8x16x1024x64) S1x1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024x64.size a ≤ S8x16x1024x64.size a
  hwx0_2 : ∀ i : grid0.Coords, EltTy.bits .f32 = 32 ∨ (Rect.block (s := S8x16x1024x64) S1x1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024x1024.size a ≤ S8x1x1024x1024.size a
  hwx0_3 : ∀ i : grid0.Coords, EltTy.bits .i32 = 32 ∨ (Rect.block (s := S8x1x1024x1024) S1x1x1024x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024x64.size a ≤ S8x16x1024x64.size a
  hwx0_4 : ∀ i : grid0.Coords, EltTy.bits .f32 = 32 ∨ (Rect.block (s := S8x16x1024x64) S1x1x1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024x1024.size a ≤ S8x16x1024x1024.size a
  hwx0_5 : ∀ i : grid0.Coords, EltTy.bits .f32 = 32 ∨ (Rect.block (s := S8x16x1024x1024) S1x1x1024x1024.size (cc0_transform_5 i) (hinb0_5 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1x1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1x1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1x1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x16x1024x64 : Shape := ⟨4, ![8, 16, 1024, 64]⟩
abbrev S8x1x1024x1024 : Shape := ⟨4, ![8, 1, 1024, 1024]⟩
abbrev S8x16x1024x1024 : Shape := ⟨4, ![8, 16, 1024, 1024]⟩
abbrev S_ : Shape := ⟨0, ![]⟩
abbrev S8x16x1024 : Shape := ⟨3, ![8, 16, 1024]⟩
abbrev S8x16x1024x1 : Shape := ⟨4, ![8, 16, 1024, 1]⟩

abbrev nBuf : Space → Nat
  | .hbm => 36
  | .vmem => 0
  | .smem => 0
  | _ => 0

abbrev bufTy : (tb : Table) → Fin (tcTables nBuf tb) → BufTy
  | .hbm, ⟨0, _⟩ => ⟨S8x16x1024x64, .f32⟩
  | .hbm, ⟨1, _⟩ => ⟨S8x16x1024x64, .f32⟩
  | .hbm, ⟨2, _⟩ => ⟨S8x16x1024x64, .f32⟩
  | .hbm, ⟨3, _⟩ => ⟨S8x1x1024x1024, .i32⟩
  | .hbm, ⟨4, _⟩ => ⟨S8x16x1024x1024, .f32⟩
  | .hbm, ⟨5, _⟩ => ⟨S_, .f32⟩
  | .hbm, ⟨6, _⟩ => ⟨S8x16x1024x1024, .f32⟩
  | .hbm, ⟨7, _⟩ => ⟨S8x16x1024x1024, .f32⟩
  | .hbm, ⟨8, _⟩ => ⟨S_, .i32⟩
  | .hbm, ⟨9, _⟩ => ⟨S8x1x1024x1024, .i32⟩
  | .hbm, ⟨10, _⟩ => ⟨S8x1x1024x1024, .i1⟩
  | .hbm, ⟨11, _⟩ => ⟨S_, .f32⟩
  | .hbm, ⟨12, _⟩ => ⟨S_, .f32⟩
  | .hbm, ⟨13, _⟩ => ⟨S8x16x1024x1024, .i1⟩
  | .hbm, ⟨14, _⟩ => ⟨S8x16x1024x1024, .f32⟩
  | .hbm, ⟨15, _⟩ => ⟨S8x16x1024x1024, .f32⟩
  | .hbm, ⟨16, _⟩ => ⟨S_, .f32⟩
  | .hbm, ⟨17, _⟩ => ⟨S8x16x1024, .f32⟩
  | .hbm, ⟨18, _⟩ => ⟨S_, .f32⟩
  | .hbm, ⟨19, _⟩ => ⟨S8x16x1024, .f32⟩
  | .hbm, ⟨20, _⟩ => ⟨S8x16x1024, .f32⟩
  | .hbm, ⟨21, _⟩ => ⟨S8x16x1024x1, .f32⟩
  | .hbm, ⟨22, _⟩ => ⟨S8x16x1024x1024, .f32⟩
  | .hbm, ⟨23, _⟩ => ⟨S8x16x1024x1024, .f32⟩
  | .hbm, ⟨24, _⟩ => ⟨S8x16x1024x1024, .f32⟩
  | .hbm, ⟨25, _⟩ => ⟨S_, .f32⟩
  | .hbm, ⟨26, _⟩ => ⟨S8x16x1024, .f32⟩
  | .hbm, ⟨27, _⟩ => ⟨S8x16x1024x1, .f32⟩
  | .hbm, ⟨28, _⟩ => ⟨S8x16x1024x1024, .f32⟩
  | .hbm, ⟨29, _⟩ => ⟨S8x16x1024x1024, .f32⟩
  | .hbm, ⟨30, _⟩ => ⟨S_, .f32⟩
  | .hbm, ⟨31, _⟩ => ⟨S_, .f32⟩
  | .hbm, ⟨32, _⟩ => ⟨S8x16x1024x1024, .i1⟩
  | .hbm, ⟨33, _⟩ => ⟨S8x16x1024x1024, .f32⟩
  | .hbm, ⟨34, _⟩ => ⟨S8x16x1024x1024, .f32⟩
  | .hbm, ⟨35, _⟩ => ⟨S8x16x1024x64, .f32⟩
  | _, _ => ⟨S8x16x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v17 : Ref sig .tc := ⟨.hbm, 34, rfl⟩
abbrev main_v18 : Ref sig .tc := ⟨.hbm, 35, rfl⟩

abbrev nD : Nat := 1
abbrev τ : Topo := Topo.v7x

variable {F : FTy → Type} [FloatOps F]

class Facts₀ : Prop where
  bcast_S_S8x16x1024x1024 : S_.BroadcastsInDim S8x16x1024x1024 (![] : Fin 0 → Fin S8x16x1024x1024.rank)
  bcast_S_S8x1x1024x1024 : S_.BroadcastsInDim S8x1x1024x1024 (![] : Fin 0 → Fin S8x1x1024x1024.rank)
  bcast_S8x1x1024x1024_S8x16x1024x1024_0_1_2_3 : S8x1x1024x1024.BroadcastsInDim S8x16x1024x1024 (![0, 1, 2, 3] : Fin 4 → Fin S8x16x1024x1024.rank)
  reducesTo_S8x16x1024x1024_S8x16x1024_d3 : S8x16x1024x1024.ReducesTo [3] S8x16x1024
  h_S_ : 0 < S_.numel
  bcast_S_S8x16x1024 : S_.BroadcastsInDim S8x16x1024 (![] : Fin 0 → Fin S8x16x1024.rank)
  bcast_S8x16x1024_S8x16x1024x1_0_1_2 : S8x16x1024.BroadcastsInDim S8x16x1024x1 (![0, 1, 2] : Fin 3 → Fin S8x16x1024x1.rank)
  bcast_S8x16x1024x1_S8x16x1024x1024_0_1_2_3 : S8x16x1024x1.BroadcastsInDim S8x16x1024x1024 (![0, 1, 2, 3] : Fin 4 → Fin S8x16x1024x1024.rank)
  dot_S8x16x1024x64_S8x16x1024x64_S8x16x1024x1024_3_3_2_2_01_01_wf : DotDims.WF S8x16x1024x64 S8x16x1024x64 S8x16x1024x1024 [3] [3] [2] [2] [0, 1] [0, 1]
  dot_S8x16x1024x1024_S8x16x1024x64_S8x16x1024x64_3_2_2_3_01_01_wf : DotDims.WF S8x16x1024x1024 S8x16x1024x64 S8x16x1024x64 [3] [2] [2] [3] [0, 1] [0, 1]

variable [Facts₀]

def dot_S8x16x1024x64_S8x16x1024x64_S8x16x1024x1024_3_3_2_2_01_01 : DotDims S8x16x1024x64 S8x16x1024x64 S8x16x1024x1024 where
  lhsContracting := [3]
  rhsContracting := [3]
  lhsNonContracting := [2]
  rhsNonContracting := [2]
  lhsBatch := [0, 1]
  rhsBatch := [0, 1]
  wf := dot_S8x16x1024x64_S8x16x1024x64_S8x16x1024x1024_3_3_2_2_01_01_wf
def dot_S8x16x1024x1024_S8x16x1024x64_S8x16x1024x64_3_2_2_3_01_01 : DotDims S8x16x1024x1024 S8x16x1024x64 S8x16x1024x64 where
  lhsContracting := [3]
  rhsContracting := [2]
  lhsNonContracting := [2]
  rhsNonContracting := [3]
  lhsBatch := [0, 1]
  rhsBatch := [0, 1]
  wf := dot_S8x16x1024x1024_S8x16x1024x64_S8x16x1024x64_3_2_2_3_01_01_wf

class Facts : Prop extends Facts₀ where

variable [Facts]
-- ==== Proof.LibPlainMatmul.lean ====
/-
  General lemmas, free of any program.

  * A `tpu.matmul` of an m×k block by a k×n block into the zero accumulator, read at the entry (a, b) at the ideal
    values, is the plain sum over the contracted coordinate c of A(a, c) · B(c, b): no accumulator term, no chunk order.
    Stated for the record `DotDims.plain m k n` and for any record equal to it (a printed record of the same six
    lists differs from it only in its well-formedness proof).
  * The two coordinates of a rank-2 index built from a pair.
  * The coercion of the reals into the extended reals commutes with finite sums and with the maximum of two reals.
-/
import Idealize.ShloMosaic.PureOps.Ideal.Laws
import Idealize.ShloMosaic.Lib.ValueIdx

noncomputable section

namespace PlainMatmul

open Idealize.ShloMosaic Idealize.ShloMosaic.ValueIdx

/-- The entry (a, b) of the product of an m×k by a k×n matrix accumulated into zero is `∑ c, A(a, c) · B(c, b)`. -/
theorem matmul_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (F := Ideal) (DotDims.plain m k n) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  -- the contraction index built from c has c on its one axis
  have hc := contrEquiv1_symm_val (DotDims.plain m k n) k rfl rfl c
  -- the left operand is read at (a, c): axis 0 is the output's row, axis 1 the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => exact ((DotDims.plain m k n).lhsIdx_val_of_single rfl (ix2 a b) _).trans hc
  -- the right operand is read at (c, b)
  have hr : (DotDims.plain m k n).rhsIdx (ix2 a b) ((contrEquiv1 _ k rfl rfl).symm c) = ix2 c b := by
    funext ax; apply Fin.ext
    match ax with
    | ⟨0, _⟩ => exact ((DotDims.plain m k n).rhsIdx_val_of_single rfl (ix2 a b) _).trans hc
    | ⟨1, _⟩ => simp [DotDims.rhsIdx, DotDims.plain]; rfl
  rw [hl, hr]

/-- The same for any record that IS the plain one. -/
theorem matmul_zero_apply_of_eq {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul (F := Ideal) d prec A B (constant ⟨2, ![m, n]⟩ .f32 0x00000000#32) (ix2 a b)
      = ∑ c : Fin k, A (ix2 a c) * B (ix2 c b) := by
  subst hd; exact matmul_zero_apply prec A B a b

/-- A finite sum of reals, coerced, is the sum of the coerced terms. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The first coordinate of the index built from (a, b) is a. -/
theorem ix2_at0 {n0 n1 : Nat} (a : Fin n0) (b : Fin n1) : (ix2 a b 0 : Fin n0) = a := rfl
/-- The second coordinate of the index built from (a, b) is b. -/
theorem ix2_at1 {n0 n1 : Nat} (a : Fin n0) (b : Fin n1) : (ix2 a b 1 : Fin n1) = b := rfl

/-- The coercion is monotone, so it commutes with the maximum. -/
theorem coe_max (a b : ℝ) : ((max a b : ℝ) : EReal) = max (a : EReal) (b : EReal) :=
  EReal.coe_strictMono.monotone.map_max

end PlainMatmul

end
-- ==== Proof.Softmax.lean ====
/-
  Masked softmax attention for ONE head, on the extended reals, and the laws that join its two spellings.

  For one (batch, head) pair let q, k, v : 1024 × 64 be the head's rows of the three operands and w : 1024 × 1024 the
  batch's integer mask. With  keep(i, j) = [w(i, j) ≠ 0],

    s(i, j)   = keep(i, j) ? (Σ_d q(i, d) · k(j, d)) / 8 : −10⁹
    m(i)      = max_j s(i, j)                       (folded from −∞)
    e(i, j)   = exp (s(i, j) − m(i))
    z(i)      = Σ_j e(i, j)
    a(i, j)   = keep(i, j) ? e(i, j) / z(i) : 0
    o(i, d)   = Σ_j a(i, j) · v(j, d).

  One program spells the scale as a product with 1/8 and the normalisation as a product with the row's reciprocal
  1/z(i); the other divides. On the extended reals  x · (1/8) = x / 8  for every x, and  e · (1/z) = e / z  as soon as
  z ≠ 0. The denominator is nonzero when q and k are finite: every score is then a real number, so is the row maximum,
  every e(i, j) is the exponential of a real number, hence positive, and z(i) is a sum of 1024 positive reals.
-/
import Idealize.ShloMosaic.PureOps.Ideal.Laws
import Idealize.ShloMosaic.Lib.ValueIdx
import proofs.«417815_j53042846105919_3_alg».proof.Proof.LibPlainMatmul

noncomputable section

namespace MaskedAttention

open Idealize.ShloMosaic

/-! ## The constants -/

/-- The word of −∞, the value every row maximum is folded from. -/
theorem negInf_eq : Ideal.ofBits .f32 0xFF800000#32 = ⊥ := by
  simp [Ideal.ofBits, Ideal.ieee]

/-- The word of 8.0 denotes the real number 8. -/
theorem eight_eq : Ideal.ofBits .f32 0x41000000#32 = ((8 : ℝ) : EReal) := by
  simp [Ideal.ofBits, Ideal.ieee, -EReal.coe_mul]; norm_num

/-- The word of 0.125 denotes the real number 1/8. -/
theorem eighth_eq : Ideal.ofBits .f32 0x3E000000#32 = ((1 / 8 : ℝ) : EReal) := by
  simp [Ideal.ofBits, Ideal.ieee, -EReal.coe_mul]; norm_num

/-- The word of 1.0 denotes 1. -/
theorem one_eq : Ideal.ofBits .f32 0x3F800000#32 = 1 := by
  simp [Ideal.ofBits, Ideal.ieee, -EReal.coe_mul]; norm_num

/-- The fill value of a masked score, −10⁹, is a real number. -/
theorem fill_real : ∃ r : ℝ, Ideal.ofBits .f32 0xCE6E6B28#32 = (r : EReal) := by
  refine ⟨-1000000000, ?_⟩
  simp [Ideal.ofBits, Ideal.ieee, -EReal.coe_mul]; norm_num

/-! ## The two laws -/

/-- Scaling by 1/8 is dividing by 8, at the infinities too. -/
theorem mul_eighth (x : EReal) :
    x * Ideal.ofBits .f32 0x3E000000#32 = Ideal.div x (Ideal.ofBits .f32 0x41000000#32) := by
  rw [eighth_eq, eight_eq, Ideal.div_coe (by norm_num : (8 : ℝ) ≠ 0)]

/-- Multiplying by the reciprocal of a nonzero denominator is dividing by it. -/
theorem mul_recip (e z : EReal) (hz : z ≠ 0) :
    e * Ideal.div (Ideal.ofBits .f32 0x3F800000#32) z = Ideal.div e z := by
  rw [one_eq]; unfold Ideal.div; rw [if_neg hz, if_neg hz, one_mul]

/-- The maximum with −∞ is the other operand. -/
theorem max_negInf (x : EReal) : max (Ideal.ofBits .f32 0xFF800000#32) x = x := by
  rw [negInf_eq]; exact max_eq_right bot_le

/-! ## One head -/

section Head

variable (q k v : Fin 1024 → Fin 64 → EReal) (w : Fin 1024 → Fin 1024 → BitVec 32)

/-- The inner product of query row i with key row j. -/
def qk (i j : Fin 1024) : EReal := ∑ d : Fin 64, q i d * k j d

/-- Whether the mask keeps the pair (i, j). -/
def keep (i j : Fin 1024) : BitVec 1 := IntOp.cmpi .ne (w i j) 0#32

/-- The masked, scaled score. -/
def score (i j : Fin 1024) : EReal :=
  Scalar.select (keep w i j) (Ideal.div (qk q k i j) (Ideal.ofBits .f32 0x41000000#32)) (Ideal.ofBits .f32 0xCE6E6B28#32)

/-- The row's maximum score, folded from −∞. -/
def rowMax (i : Fin 1024) : EReal :=
  (Finset.univ : Finset (Fin 1024)).fold max (Ideal.ofBits .f32 0xFF800000#32) (fun j => score q k w i j)

/-- The shifted exponential. -/
def expo (i j : Fin 1024) : EReal := Ideal.exp (score q k w i j - rowMax q k w i)

/-- The row's normaliser. -/
def denom (i : Fin 1024) : EReal := ∑ j : Fin 1024, expo q k w i j

/-- The attention weight: the softmax of the masked scores, masked once more. -/
def attn (i j : Fin 1024) : EReal :=
  Scalar.select (keep w i j) (Ideal.div (expo q k w i j) (denom q k w i)) (Ideal.ofBits .f32 0x00000000#32)

/-- The attended values. -/
def out (i : Fin 1024) (d : Fin 64) : EReal := ∑ j : Fin 1024, attn q k w i j * v j d

/-! ### Finite operands give a nonzero normaliser -/

variable (hq : ∀ i d, ∃ r : ℝ, q i d = (r : EReal)) (hk : ∀ i d, ∃ r : ℝ, k i d = (r : EReal))

include hq hk in
/-- The inner product of two real rows is a real number. -/
theorem qk_real (i j : Fin 1024) : ∃ r : ℝ, qk q k i j = (r : EReal) := by
  choose q' hq' using hq
  choose k' hk' using hk
  refine ⟨∑ d : Fin 64, q' i d * k' j d, ?_⟩
  unfold qk
  rw [PlainMatmul.coe_sum]
  exact Finset.sum_congr rfl fun d _ => by rw [hq', hk', EReal.coe_mul]

include hq hk in
/-- Every score is a real number: a real inner product divided by 8, or the real fill value. -/
theorem score_real (i j : Fin 1024) : ∃ r : ℝ, score q k w i j = (r : EReal) := by
  obtain ⟨r, hr⟩ := qk_real q k hq hk i j
  obtain ⟨f, hf⟩ := fill_real
  unfold score Scalar.select
  split
  · refine ⟨r * (1 / 8), ?_⟩
    rw [hr, eight_eq, Ideal.div_coe (by norm_num : (8 : ℝ) ≠ 0), EReal.coe_mul]
  · exact ⟨f, hf⟩

include hq hk in
/-- The row maximum of 1024 real scores is a real number: it is at least the first score, and below +∞ as all are. -/
theorem rowMax_real (i : Fin 1024) : ∃ r : ℝ, rowMax q k w i = (r : EReal) := by
  have hlt : rowMax q k w i < ⊤ := by
    unfold rowMax
    rw [Finset.fold_max_lt]
    refine ⟨by rw [negInf_eq]; exact bot_lt_top, fun j _ => ?_⟩
    obtain ⟨r, hr⟩ := score_real q k w hq hk i j
    rw [hr]; exact EReal.coe_lt_top r
  have hge : score q k w i 0 ≤ rowMax q k w i := by
    unfold rowMax
    rw [Finset.le_fold_max]
    exact Or.inr ⟨0, Finset.mem_univ _, le_rfl⟩
  obtain ⟨r0, hr0⟩ := score_real q k w hq hk i 0
  induction hm : rowMax q k w i using EReal.rec with
  | bot => rw [hm, hr0] at hge; exact absurd hge (not_le.mpr (EReal.bot_lt_coe r0))
  | coe r => exact ⟨r, rfl⟩
  | top => rw [hm] at hlt; exact absurd hlt (lt_irrefl _)

include hq hk in
/-- Every shifted exponential is a positive real number. -/
theorem expo_pos (i j : Fin 1024) : ∃ r : ℝ, 0 < r ∧ expo q k w i j = (r : EReal) := by
  obtain ⟨s, hs⟩ := score_real q k w hq hk i j
  obtain ⟨m, hm⟩ := rowMax_real q k w hq hk i
  refine ⟨Real.exp (s - m), Real.exp_pos _, ?_⟩
  unfold expo
  rw [hs, hm, ← EReal.coe_sub]
  rfl

include hq hk in
/-- So the normaliser, a sum of positive reals, is not zero. -/
theorem denom_ne_zero (i : Fin 1024) : denom q k w i ≠ 0 := by
  choose e he using fun j => expo_pos q k w hq hk i j
  have hsum : denom q k w i = ((∑ j : Fin 1024, e j : ℝ) : EReal) := by
    unfold denom
    rw [PlainMatmul.coe_sum]
    exact Finset.sum_congr rfl fun j _ => (he j).2
  have hpos : (0 : ℝ) < ∑ j : Fin 1024, e j :=
    Finset.sum_pos (fun j _ => (he j).1) ⟨0, Finset.mem_univ _⟩
  rw [hsum]
  exact_mod_cast hpos.ne'

end Head

end MaskedAttention

end
-- ==== Proof.Arrays.lean ====
/-
  The two results as whole arrays. Operands Q, K, V : [8, 16, 1024, 64] and a mask W : [8, 1, 1024, 1024] shared by the
  16 heads of a batch. Entry (b, h, i, j) of the attention array is the weight a(i, j) of head (b, h), whose rows are
  Q(b, h, ·, ·), K(b, h, ·, ·) and whose mask is W(b, 0, ·, ·); entry (b, h, i, d) of the output array is o(i, d) of
  that head, over the rows V(b, h, ·, ·).
-/
import proofs.«417815_j53042846105919_3_alg».proof.Proof.Softmax

noncomputable section

namespace MaskedAttention

open Idealize.ShloMosaic Idealize.ShloMosaic.ValueIdx

/-- Head (b, h)'s 1024 × 64 rows of a [8, 16, 1024, 64] operand. -/
def rows (X : (⟨4, ![8, 16, 1024, 64]⟩ : Shape).Idx → EReal) (b : Fin 8) (h : Fin 16) : Fin 1024 → Fin 64 → EReal :=
  fun i d => X (ix4 b h i d)

/-- Batch b's 1024 × 1024 mask. -/
def maskOf (W : (⟨4, ![8, 1, 1024, 1024]⟩ : Shape).Idx → BitVec 32) (b : Fin 8) : Fin 1024 → Fin 1024 → BitVec 32 :=
  fun i j => W (ix4 b (0 : Fin 1) i j)

/-- The attention array. -/
def attnArr (Q K : (⟨4, ![8, 16, 1024, 64]⟩ : Shape).Idx → EReal) (W : (⟨4, ![8, 1, 1024, 1024]⟩ : Shape).Idx → BitVec 32) :
    (⟨4, ![8, 16, 1024, 1024]⟩ : Shape).Idx → EReal :=
  fun x => attn (rows Q (x 0) (x 1)) (rows K (x 0) (x 1)) (maskOf W (x 0)) (x 2) (x 3)

/-- The output array. -/
def outArr (Q K V : (⟨4, ![8, 16, 1024, 64]⟩ : Shape).Idx → EReal) (W : (⟨4, ![8, 1, 1024, 1024]⟩ : Shape).Idx → BitVec 32) :
    (⟨4, ![8, 16, 1024, 64]⟩ : Shape).Idx → EReal :=
  fun x => out (rows Q (x 0) (x 1)) (rows K (x 0) (x 1)) (rows V (x 0) (x 1)) (maskOf W (x 0)) (x 2) (x 3)

theorem attnArr_ix4 (Q K : (⟨4, ![8, 16, 1024, 64]⟩ : Shape).Idx → EReal) (W : (⟨4, ![8, 1, 1024, 1024]⟩ : Shape).Idx → BitVec 32)
    (b : Fin 8) (h : Fin 16) (i j : Fin 1024) :
    attnArr Q K W (ix4 b h i j) = attn (rows Q b h) (rows K b h) (maskOf W b) i j := rfl

theorem outArr_ix4 (Q K V : (⟨4, ![8, 16, 1024, 64]⟩ : Shape).Idx → EReal) (W : (⟨4, ![8, 1, 1024, 1024]⟩ : Shape).Idx → BitVec 32)
    (b : Fin 8) (h : Fin 16) (i : Fin 1024) (d : Fin 64) :
    outArr Q K V W (ix4 b h i d) = out (rows Q b h) (rows K b h) (rows V b h) (maskOf W b) i d := rfl

end MaskedAttention

end
-- ==== Proof.LibLayout.lean ====
/-
  General lemmas, free of any program: how a value is read through the layout operations that take a row-major
  [1, 1, a, b] block to its [a, b] matrix, a length-a vector to an [a, 1] column, and an [a, 1] column to the [a, b]
  matrix whose every column it is; and the index a reduction over the second axis of an [a, b] matrix reads.
-/
import Idealize.ShloMosaic.Lib.Pipeline.Value
import Idealize.ShloMosaic.Lib.ValueIdx
import Idealize.ShloMosaic.PureOps.Reduce

noncomputable section

namespace HeadLayout

open Idealize.ShloMosaic Idealize.ShloMosaic.ValueIdx

variable {α : Type}

/-- A [1, 1, a, b] array cast to [a, b] reads, at (i, j), the operand at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- A length-a vector cast to an [a, 1] column reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (i, j), the column's entry i. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Row i of an [a, b] matrix with the column coordinate j put back is (i, j). -/
theorem lift_col {a b : ℕ} (h : (⟨2, ![a, b]⟩ : Shape).Reduces [1] (⟨1, ![a]⟩ : Shape)) (i : Fin a)
    (j : Fin ((⟨2, ![a, b]⟩ : Shape).size 1)) : h.lift (ix1 i) j = ix2 i (⟨j.val, j.isLt⟩ : Fin b) := by
  funext c; apply Fin.ext
  fin_cases c <;> rfl

end HeadLayout

end
-- ==== Proof.KernelSide.lean ====
/-
  What the kernel's body computes from one grid point's blocks, read entry by entry. The point's blocks are the rows of
  one head: q, k, v as [1, 1, 1024, 64] blocks and the batch's mask as a [1, 1, 1024, 1024] block. The body forms
  q·kᵀ by one matrix product contracting the feature axis of both operands, scales it by 1/8, fills the masked scores,
  takes each row's maximum and sum along the key axis, multiplies the exponentials by the row's reciprocal, masks
  again, and multiplies the weights by v (the narrowing of both operands before that product is the identity on the
  extended reals). Entry by entry this is the head's attention weight and output of Softmax.lean: the scale by 1/8 is
  the division by 8, and the product with the reciprocal is the quotient because the normaliser of finite rows is
  not zero.
-/
import proofs.«417815_j53042846105919_3_alg».proof.Proof.Gen.KernelIdeal.Skeleton
import proofs.«417815_j53042846105919_3_alg».proof.Proof.Arrays
import proofs.«417815_j53042846105919_3_alg».proof.Proof.LibLayout
import proofs.«417815_j53042846105919_3_alg».proof.Proof.LibPlainMatmul

noncomputable section

namespace Cert.KernelIdeal.HeadValue

open Cert.KernelIdeal Cert.KernelIdeal.Gen Idealize.ShloMosaic Idealize.ShloMosaic.ValueIdx Idealize.ShloMosaic.TcCoe
  MaskedAttention HeadLayout

/-- The 1024 × 64 rows a [1, 1, 1024, 64] block holds. -/
def brows (P : Vec Ideal S1x1x1024x64 .f32) : Fin 1024 → Fin 64 → EReal :=
  fun i d => P (ix4 (0 : Fin 1) (0 : Fin 1) i d)

/-- The 1024 × 1024 mask a [1, 1, 1024, 1024] block holds. -/
def bmask (P : Vec Ideal S1x1x1024x1024 .i32) : Fin 1024 → Fin 1024 → BitVec 32 :=
  fun i j => P (ix4 (0 : Fin 1) (0 : Fin 1) i j)

variable (P0 P1 P2 : Vec Ideal S1x1x1024x64 .f32) (P3 : Vec Ideal S1x1x1024x1024 .i32)

/-! ## The body's values, named -/

/-- A block as its matrix. -/
abbrev mat (P : Vec Ideal S1x1x1024x64 .f32) : FVec Ideal S1024x64 .f32 :=
  shapeCast S1024x64 P shapeCasts_S1x1x1024x64_S1024x64

/-- q·kᵀ. -/
abbrev prodv : FVec Ideal S1024x1024 .f32 :=
  matmul dot_S1024x64_S1024x64_S1024x1024_1_1_0_0_n_n none (mat P0) (mat P1) (constant S1024x1024 .f32 0x00000000#32)

/-- The mask's bits. -/
abbrev keepv : IVec S1024x1024 1 :=
  cmpi .ne (shapeCast S1024x1024 P3 shapeCasts_S1x1x1024x1024_S1024x1024) (broadcast S1024x1024 0#32)

/-- The masked scaled scores. -/
abbrev scorev : FVec Ideal S1024x1024 .f32 :=
  select (keepv P3) (mulf (prodv P0 P1) (broadcast S1024x1024 (Scalar.ofBits .f32 0x3E000000#32)))
    (broadcast S1024x1024 (Scalar.ofBits .f32 0xCE6E6B28#32))

/-- The row maxima. -/
abbrev maxv : FVec Ideal S1024 .f32 :=
  multiReduction .maximumf [1] S1024 (scorev P0 P1 P3) 0xFF800000#32 reduces_S1024x1024_S1024 (.inl rfl) rfl

/-- The shifted exponentials. -/
abbrev expv : FVec Ideal S1024x1024 .f32 :=
  exp (subf (scorev P0 P1 P3)
    (broadcastTo S1024x1024 (shapeCast S1024x1 (maxv P0 P1 P3) shapeCasts_S1024_S1024x1) broadcasts_S1024x1_S1024x1024))

/-- The row sums. -/
abbrev sumv : FVec Ideal S1024 .f32 :=
  multiReduction .add [1] S1024 (expv P0 P1 P3) 0x00000000#32 reduces_S1024x1024_S1024 (.inl rfl) rfl

/-- The rows' reciprocals, as a column. -/
abbrev recipv : FVec Ideal S1024x1 .f32 :=
  divf (broadcast S1024x1 (Scalar.ofBits .f32 0x3F800000#32)) (shapeCast S1024x1 (sumv P0 P1 P3) shapeCasts_S1024_S1024x1)

/-- The attention weights. -/
abbrev attnv : FVec Ideal S1024x1024 .f32 :=
  select (keepv P3) (mulf (expv P0 P1 P3) (broadcastTo S1024x1024 (recipv P0 P1 P3) broadcasts_S1024x1_S1024x1024))
    (broadcast S1024x1024 (Scalar.ofBits .f32 0x00000000#32))

/-- The attended values. -/
abbrev outv : FVec Ideal S1024x64 .f32 :=
  matmul dot_S1024x1024_S1024x64_S1024x64_1_0_0_1_n_n none (truncf .bf16 (attnv P0 P1 P3) bitsLt_bf16_f32)
    (truncf .bf16 (mat P2) bitsLt_bf16_f32) (constant S1024x64 .f32 0x00000000#32)

/-- The body's second stored value is the weights … -/
theorem pay3_eq : k0_pay3 (F := Ideal) P0 P1 P3 = attnv P0 P1 P3 := rfl

/-- … and its first the attended values. -/
theorem pay4_eq : k0_pay4 (F := Ideal) P0 P1 P2 P3 = outv P0 P1 P2 P3 := rfl

/-! ## The first product's operand indices -/

theorem lhs_qk_0 (x : S1024x1024.Idx) (c : dot_S1024x64_S1024x64_S1024x1024_1_1_0_0_n_n.contr.Idx) :
    (dot_S1024x64_S1024x64_S1024x1024_1_1_0_0_n_n.lhsIdx x c 0).val = (x 0).val := by
  unfold DotDims.lhsIdx
  rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
  rfl
theorem lhs_qk_1 (x : S1024x1024.Idx) (c : dot_S1024x64_S1024x64_S1024x1024_1_1_0_0_n_n.contr.Idx) :
    (dot_S1024x64_S1024x64_S1024x1024_1_1_0_0_n_n.lhsIdx x c 1).val = (c ⟨0, by decide⟩).val :=
  dot_S1024x64_S1024x64_S1024x1024_1_1_0_0_n_n.lhsIdx_val_of_single rfl x c
theorem rhs_qk_0 (x : S1024x1024.Idx) (c : dot_S1024x64_S1024x64_S1024x1024_1_1_0_0_n_n.contr.Idx) :
    (dot_S1024x64_S1024x64_S1024x1024_1_1_0_0_n_n.rhsIdx x c 0).val = (x 1).val := by
  unfold DotDims.rhsIdx
  rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
  rfl
theorem rhs_qk_1 (x : S1024x1024.Idx) (c : dot_S1024x64_S1024x64_S1024x1024_1_1_0_0_n_n.contr.Idx) :
    (dot_S1024x64_S1024x64_S1024x1024_1_1_0_0_n_n.rhsIdx x c 1).val = (c ⟨0, by decide⟩).val :=
  dot_S1024x64_S1024x64_S1024x1024_1_1_0_0_n_n.rhsIdx_val_of_single rfl x c

/-! ## Entry by entry -/

theorem mat_apply (P : Vec Ideal S1x1x1024x64 .f32) (i : Fin 1024) (d : Fin 64) : mat P (ix2 i d) = brows P i d :=
  shapeCast_11ab_ab_apply P shapeCasts_S1x1x1024x64_S1024x64 i d

/-- Entry (i, j) of q·kᵀ is the inner product of row i of q with row j of k. -/
theorem prodv_apply (i j : Fin 1024) : prodv P0 P1 (ix2 i j) = qk (brows P0) (brows P1) i j := by
  show FloatOps.matmul dot_S1024x64_S1024x64_S1024x1024_1_1_0_0_n_n none (mat P0) (mat P1) (constant S1024x1024 .f32 0x00000000#32) (ix2 i j) = _
  rw [Ideal.matmul_constant_zero_apply, ← Equiv.sum_comp (contrEquiv1 dot_S1024x64_S1024x64_S1024x1024_1_1_0_0_n_n 64 rfl rfl).symm]
  unfold qk
  refine Finset.sum_congr rfl fun d _ => ?_
  have hd := contrEquiv1_symm_val dot_S1024x64_S1024x64_S1024x1024_1_1_0_0_n_n 64 rfl rfl d
  have el : dot_S1024x64_S1024x64_S1024x1024_1_1_0_0_n_n.lhsIdx (ix2 i j) ((contrEquiv1 dot_S1024x64_S1024x64_S1024x1024_1_1_0_0_n_n 64 rfl rfl).symm d) = ix2 i d := funext fun a => Fin.ext (by
    match a with
    | ⟨0, _⟩ => exact lhs_qk_0 _ _
    | ⟨1, _⟩ => exact (lhs_qk_1 _ _).trans hd)
  have er : dot_S1024x64_S1024x64_S1024x1024_1_1_0_0_n_n.rhsIdx (ix2 i j) ((contrEquiv1 dot_S1024x64_S1024x64_S1024x1024_1_1_0_0_n_n 64 rfl rfl).symm d) = ix2 j d := funext fun a => Fin.ext (by
    match a with
    | ⟨0, _⟩ => exact rhs_qk_0 _ _
    | ⟨1, _⟩ => exact (rhs_qk_1 _ _).trans hd)
  rw [el, er, mat_apply, mat_apply]

theorem keepv_apply (i j : Fin 1024) : keepv P3 (ix2 i j) = keep (bmask P3) i j := by
  show IntOp.cmpi .ne (shapeCast S1024x1024 P3 shapeCasts_S1x1x1024x1024_S1024x1024 (ix2 i j)) 0#32 = _
  rw [shapeCast_11ab_ab_apply]
  rfl

/-- The masked scaled score: the scale by 1/8 is the division by 8. -/
theorem scorev_apply (i j : Fin 1024) :
    scorev P0 P1 P3 (ix2 i j) = score (brows P0) (brows P1) (bmask P3) i j := by
  show Scalar.select (keepv P3 (ix2 i j)) (prodv P0 P1 (ix2 i j) * Ideal.ofBits .f32 0x3E000000#32) (Ideal.ofBits .f32 0xCE6E6B28#32) = _
  rw [keepv_apply, prodv_apply, mul_eighth]
  rfl

/-- The row maximum. -/
theorem maxv_apply (i : Fin 1024) : maxv P0 P1 P3 (ix1 i) = rowMax (brows P0) (brows P1) (bmask P3) i := by
  refine (Ideal.multiReduction_maximumf_single (scorev P0 P1 P3) 0xFF800000#32 reduces_S1024x1024_S1024 (.inl rfl) rfl (ix1 i)).trans ?_
  have hf : (scorev P0 P1 P3 ∘ (reduces_S1024x1024_S1024 : S1024x1024.Reduces [1] S1024).lift (ix1 i))
      = fun j : Fin 1024 => score (brows P0) (brows P1) (bmask P3) i j :=
    funext fun j => by
      show scorev P0 P1 P3 ((reduces_S1024x1024_S1024 : S1024x1024.Reduces [1] S1024).lift (ix1 i) j) = _
      rw [lift_col, scorev_apply]
      rfl
  rw [hf]
  rfl

/-- A row value, cast to a column and broadcast along the row, is read back at every entry of the row. -/
theorem row_bcast (X : FVec Ideal S1024 .f32) (i j : Fin 1024) :
    broadcastTo S1024x1024 (shapeCast S1024x1 X shapeCasts_S1024_S1024x1) broadcasts_S1024x1_S1024x1024 (ix2 i j) = X (ix1 i) := by
  rw [broadcastTo_a1_ab_apply, shapeCast_a_a1_apply]

/-- The shifted exponential. -/
theorem expv_apply (i j : Fin 1024) : expv P0 P1 P3 (ix2 i j) = expo (brows P0) (brows P1) (bmask P3) i j := by
  show Ideal.exp (scorev P0 P1 P3 (ix2 i j) - broadcastTo S1024x1024 (shapeCast S1024x1 (maxv P0 P1 P3) shapeCasts_S1024_S1024x1) broadcasts_S1024x1_S1024x1024 (ix2 i j)) = _
  rw [row_bcast, maxv_apply, scorev_apply]
  rfl

/-- The row sum. -/
theorem sumv_apply (i : Fin 1024) : sumv P0 P1 P3 (ix1 i) = denom (brows P0) (brows P1) (bmask P3) i := by
  refine (Ideal.multiReduction_add_single (expv P0 P1 P3) 0x00000000#32 reduces_S1024x1024_S1024 (.inl rfl) rfl (ix1 i)).trans ?_
  unfold denom
  refine Finset.sum_congr rfl fun j _ => ?_
  rw [lift_col, expv_apply]
  rfl

variable (hq : ∀ i d, ∃ r : ℝ, brows P0 i d = (r : EReal)) (hk : ∀ i d, ∃ r : ℝ, brows P1 i d = (r : EReal))

include hq hk in
/-- The attention weight: the product with the row's reciprocal is the quotient, the normaliser being nonzero. -/
theorem attnv_apply (i j : Fin 1024) : attnv P0 P1 P3 (ix2 i j) = attn (brows P0) (brows P1) (bmask P3) i j := by
  show Scalar.select (keepv P3 (ix2 i j)) (expv P0 P1 P3 (ix2 i j) * broadcastTo S1024x1024 (recipv P0 P1 P3) broadcasts_S1024x1_S1024x1024 (ix2 i j)) (Ideal.ofBits .f32 0x00000000#32) = _
  rw [broadcastTo_a1_ab_apply]
  show Scalar.select (keepv P3 (ix2 i j)) (expv P0 P1 P3 (ix2 i j) * Ideal.div (Ideal.ofBits .f32 0x3F800000#32) (shapeCast S1024x1 (sumv P0 P1 P3) shapeCasts_S1024_S1024x1 (ix2 i (0 : Fin 1)))) (Ideal.ofBits .f32 0x00000000#32) = _
  rw [shapeCast_a_a1_apply, sumv_apply, expv_apply, keepv_apply, mul_recip _ _ (denom_ne_zero _ _ _ hq hk i)]
  rfl

include hq hk in
/-- The attended value: the second product is a plain one, contracting the key axis. -/
theorem outv_apply (i : Fin 1024) (d : Fin 64) :
    outv P0 P1 P2 P3 (ix2 i d) = out (brows P0) (brows P1) (brows P2) (bmask P3) i d := by
  have hD : dot_S1024x1024_S1024x64_S1024x64_1_0_0_1_n_n = DotDims.plain 1024 1024 64 := rfl
  show matmul (F := Ideal) dot_S1024x1024_S1024x64_S1024x64_1_0_0_1_n_n none (truncf .bf16 (attnv P0 P1 P3) bitsLt_bf16_f32) (truncf .bf16 (mat P2) bitsLt_bf16_f32) (constant S1024x64 .f32 0x00000000#32) (ix2 i d) = _
  rw [PlainMatmul.matmul_zero_apply_of_eq _ hD]
  unfold out
  refine Finset.sum_congr rfl fun j _ => ?_
  show attnv P0 P1 P3 (ix2 i j) * mat P2 (ix2 j d) = _
  rw [attnv_apply P0 P1 P3 hq hk, mat_apply]

end Cert.KernelIdeal.HeadValue

end
-- ==== Proof.Blocks.lean ====
/-
  From one grid point's blocks to the whole arrays. The grid has 8 × 16 points, the head axis innermost: point t works
  on batch t / 16 and head t % 16. Its q, k, v blocks are rows (t / 16, t % 16, ·, ·) of the three operands, its mask
  block is (t / 16, 0, ·, ·) of the mask, and it writes back block (t / 16, t % 16, ·, ·) of each result. What it
  writes is that head's attention weights and attended values, so each write-back is the matching block of the array
  functions of Arrays.lean; the 128 blocks tile both results, which therefore end holding those arrays.
-/
import proofs.«417815_j53042846105919_3_alg».proof.Proof.Gen.KernelIdeal.Value
import proofs.«417815_j53042846105919_3_alg».proof.Proof.KernelSide

noncomputable section

namespace Cert.KernelIdeal.ArrayValue

open Cert.KernelIdeal Cert.KernelIdeal.Gen Cert.KernelIdeal.HeadValue Idealize.ShloMosaic Idealize.ShloMosaic.ValueIdx
  Idealize.ShloMosaic.TcCoe Idealize.SL.Sem MaskedAttention
open Idealize.ShloMosaic.Pipeline (Dat)

variable (m : (ℓ : Loc nD τ sig) → Buf (Elt Ideal) ℓ) (ρ : Dev nD → PrngReg)

theorem hz : (![0, 0, 0, 0] : Fin 4 → Nat) = fun _ => 0 := funext fun a => by fin_cases a <;> rfl

/-! ## The grid point's batch and head -/

theorem lt_N (t : Fin cfg0.N) : t.val < 128 := Nat.lt_of_lt_of_eq t.isLt N_0

/-- The batch of point t. -/
def pb (t : Fin cfg0.N) : Fin 8 := ⟨t.val / 16, by have := lt_N t; omega⟩
/-- The head of point t. -/
def ph (t : Fin cfg0.N) : Fin 16 := ⟨t.val % 16, by omega⟩

/-- The printed index maps, decided over the 128 points: every operand's and result's block index is (batch, head, 0, 0),
    the mask's (batch, 0, 0, 0). -/
theorem idx_facts : ∀ t : Fin cfg0.N,
    (win0_0.index t (0 : Fin 4) = t.val / 16 ∧ win0_0.index t (1 : Fin 4) = t.val % 16 ∧ win0_0.index t (2 : Fin 4) = 0 ∧ win0_0.index t (3 : Fin 4) = 0)
    ∧ (win0_1.index t (0 : Fin 4) = t.val / 16 ∧ win0_1.index t (1 : Fin 4) = t.val % 16 ∧ win0_1.index t (2 : Fin 4) = 0 ∧ win0_1.index t (3 : Fin 4) = 0)
    ∧ (win0_2.index t (0 : Fin 4) = t.val / 16 ∧ win0_2.index t (1 : Fin 4) = t.val % 16 ∧ win0_2.index t (2 : Fin 4) = 0 ∧ win0_2.index t (3 : Fin 4) = 0)
    ∧ (win0_3.index t (0 : Fin 4) = t.val / 16 ∧ win0_3.index t (1 : Fin 4) = 0 ∧ win0_3.index t (2 : Fin 4) = 0 ∧ win0_3.index t (3 : Fin 4) = 0)
    ∧ (win0_4.index t (0 : Fin 4) = t.val / 16 ∧ win0_4.index t (1 : Fin 4) = t.val % 16 ∧ win0_4.index t (2 : Fin 4) = 0 ∧ win0_4.index t (3 : Fin 4) = 0)
    ∧ (win0_5.index t (0 : Fin 4) = t.val / 16 ∧ win0_5.index t (1 : Fin 4) = t.val % 16 ∧ win0_5.index t (2 : Fin 4) = 0 ∧ win0_5.index t (3 : Fin 4) = 0) :=
  (by decide +kernel : ∀ t : Fin grid0.N, _)

/-! ## The input blocks are the head's rows -/

/-- Entry (0, 0, i, d) of point t's q block is entry (batch, head, i, d) of the first operand. -/
theorem qblk_apply (c : Dev nD) (t : Fin cfg0.N) (i : Fin 1024) (d : Fin 64) :
    (iblk m c 0 t : Vec Ideal S1x1x1024x64 .f32) (ix4 (0 : Fin 1) (0 : Fin 1) i d)
      = (V m c main_arg0 : S8x16x1024x64.Idx → Elt Ideal .f32) (ix4 (pb t) (ph t) i d) := by
  obtain ⟨⟨e0, e1, e2, e3⟩, -⟩ := idx_facts t
  unfold iblk
  rw [View.read_apply]
  show V m c main_arg0 _ = V m c main_arg0 _
  congr 1
  funext a
  apply Fin.ext
  match a with
  | ⟨0, _⟩ => show win0_0.index t (0 : Fin 4) * 1 + 1 * 0 = t.val / 16; omega
  | ⟨1, _⟩ => show win0_0.index t (1 : Fin 4) * 1 + 1 * 0 = t.val % 16; omega
  | ⟨2, _⟩ => show win0_0.index t (2 : Fin 4) * 1024 + 1 * i.val = i.val; omega
  | ⟨3, _⟩ => show win0_0.index t (3 : Fin 4) * 64 + 1 * d.val = d.val; omega

theorem kblk_apply (c : Dev nD) (t : Fin cfg0.N) (i : Fin 1024) (d : Fin 64) :
    (iblk m c 1 t : Vec Ideal S1x1x1024x64 .f32) (ix4 (0 : Fin 1) (0 : Fin 1) i d)
      = (V m c main_arg1 : S8x16x1024x64.Idx → Elt Ideal .f32) (ix4 (pb t) (ph t) i d) := by
  obtain ⟨-, ⟨e0, e1, e2, e3⟩, -⟩ := idx_facts t
  unfold iblk
  rw [View.read_apply]
  show V m c main_arg1 _ = V m c main_arg1 _
  congr 1
  funext a
  apply Fin.ext
  match a with
  | ⟨0, _⟩ => show win0_1.index t (0 : Fin 4) * 1 + 1 * 0 = t.val / 16; omega
  | ⟨1, _⟩ => show win0_1.index t (1 : Fin 4) * 1 + 1 * 0 = t.val % 16; omega
  | ⟨2, _⟩ => show win0_1.index t (2 : Fin 4) * 1024 + 1 * i.val = i.val; omega
  | ⟨3, _⟩ => show win0_1.index t (3 : Fin 4) * 64 + 1 * d.val = d.val; omega

theorem vblk_apply (c : Dev nD) (t : Fin cfg0.N) (i : Fin 1024) (d : Fin 64) :
    (iblk m c 2 t : Vec Ideal S1x1x1024x64 .f32) (ix4 (0 : Fin 1) (0 : Fin 1) i d)
      = (V m c main_arg2 : S8x16x1024x64.Idx → Elt Ideal .f32) (ix4 (pb t) (ph t) i d) := by
  obtain ⟨-, -, ⟨e0, e1, e2, e3⟩, -⟩ := idx_facts t
  unfold iblk
  rw [View.read_apply]
  show V m c main_arg2 _ = V m c main_arg2 _
  congr 1
  funext a
  apply Fin.ext
  match a with
  | ⟨0, _⟩ => show win0_2.index t (0 : Fin 4) * 1 + 1 * 0 = t.val / 16; omega
  | ⟨1, _⟩ => show win0_2.index t (1 : Fin 4) * 1 + 1 * 0 = t.val % 16; omega
  | ⟨2, _⟩ => show win0_2.index t (2 : Fin 4) * 1024 + 1 * i.val = i.val; omega
  | ⟨3, _⟩ => show win0_2.index t (3 : Fin 4) * 64 + 1 * d.val = d.val; omega

/-- Entry (0, 0, i, j) of point t's mask block is entry (batch, 0, i, j) of the mask. -/
theorem wblk_apply (c : Dev nD) (t : Fin cfg0.N) (i j : Fin 1024) :
    (iblk m c 3 t : Vec Ideal S1x1x1024x1024 .i32) (ix4 (0 : Fin 1) (0 : Fin 1) i j)
      = (V m c main_arg3 : S8x1x1024x1024.Idx → Elt Ideal .i32) (ix4 (pb t) (0 : Fin 1) i j) := by
  obtain ⟨-, -, -, ⟨e0, e1, e2, e3⟩, -⟩ := idx_facts t
  unfold iblk
  rw [View.read_apply]
  show V m c main_arg3 _ = V m c main_arg3 _
  congr 1
  funext a
  apply Fin.ext
  match a with
  | ⟨0, _⟩ => show win0_3.index t (0 : Fin 4) * 1 + 1 * 0 = t.val / 16; omega
  | ⟨1, _⟩ => show win0_3.index t (1 : Fin 4) * 1 + 1 * 0 = 0; omega
  | ⟨2, _⟩ => show win0_3.index t (2 : Fin 4) * 1024 + 1 * i.val = i.val; omega
  | ⟨3, _⟩ => show win0_3.index t (3 : Fin 4) * 1024 + 1 * j.val = j.val; omega

theorem qrows (c : Dev nD) (t : Fin cfg0.N) : brows (iblk m c 0 t) = rows (V m c main_arg0) (pb t) (ph t) :=
  funext fun i => funext fun d => qblk_apply m c t i d
theorem krows (c : Dev nD) (t : Fin cfg0.N) : brows (iblk m c 1 t) = rows (V m c main_arg1) (pb t) (ph t) :=
  funext fun i => funext fun d => kblk_apply m c t i d
theorem vrows (c : Dev nD) (t : Fin cfg0.N) : brows (iblk m c 2 t) = rows (V m c main_arg2) (pb t) (ph t) :=
  funext fun i => funext fun d => vblk_apply m c t i d
theorem wmask (c : Dev nD) (t : Fin cfg0.N) : bmask (iblk m c 3 t) = maskOf (V m c main_arg3) (pb t) :=
  funext fun i => funext fun j => wblk_apply m c t i j

/-! ## What the stored blocks hold, entry by entry -/

theorem ix5_eq (y : S1x1x1024x1024.Idx) :
    Value.ix5_0 y = ix2 (⟨(y 2).val, (y 2).isLt⟩ : Fin 1024) (⟨(y 3).val, (y 3).isLt⟩ : Fin 1024) :=
  funext fun a => by match a with | ⟨0, _⟩ => rfl | ⟨1, _⟩ => rfl

theorem ix4_eq (y : S1x1x1024x64.Idx) :
    Value.ix4_0 y = ix2 (⟨(y 2).val, (y 2).isLt⟩ : Fin 1024) (⟨(y 3).val, (y 3).isLt⟩ : Fin 64) :=
  funext fun a => by match a with | ⟨0, _⟩ => rfl | ⟨1, _⟩ => rfl

/-- The weights block, entry (·, ·, i, j), is the head's weight a(i, j). -/
theorem block_attn (P0 P1 : Vec Ideal S1x1x1024x64 .f32) (P3 : Vec Ideal S1x1x1024x1024 .i32)
    (hq : ∀ i d, ∃ r : ℝ, brows P0 i d = (r : EReal)) (hk : ∀ i d, ∃ r : ℝ, brows P1 i d = (r : EReal))
    (y : S1x1x1024x1024.Idx) :
    Value.E5 (F := Ideal) P0 P1 P3 y
      = attn (brows P0) (brows P1) (bmask P3) (⟨(y 2).val, (y 2).isLt⟩ : Fin 1024) (⟨(y 3).val, (y 3).isLt⟩ : Fin 1024) := by
  show k0_pay3 (F := Ideal) P0 P1 P3 (Value.ix5_0 y) = _
  rw [ix5_eq, pay3_eq, attnv_apply P0 P1 P3 hq hk]

/-- The output block, entry (·, ·, i, d), is the head's attended value o(i, d). -/
theorem block_out (P0 P1 P2 : Vec Ideal S1x1x1024x64 .f32) (P3 : Vec Ideal S1x1x1024x1024 .i32)
    (hq : ∀ i d, ∃ r : ℝ, brows P0 i d = (r : EReal)) (hk : ∀ i d, ∃ r : ℝ, brows P1 i d = (r : EReal))
    (y : S1x1x1024x64.Idx) :
    Value.E4 (F := Ideal) P0 P1 P2 P3 y
      = out (brows P0) (brows P1) (brows P2) (bmask P3) (⟨(y 2).val, (y 2).isLt⟩ : Fin 1024) (⟨(y 3).val, (y 3).isLt⟩ : Fin 64) := by
  show k0_pay4 (F := Ideal) P0 P1 P2 P3 (Value.ix4_0 y) = _
  rw [ix4_eq, pay4_eq, outv_apply P0 P1 P2 P3 hq hk]

/-! ## What each point writes back -/

section Finite

variable (c : Dev nD)
  (hQ : ∀ x, ∃ r : ℝ, (V m c main_arg0 : S8x16x1024x64.Idx → Elt Ideal .f32) x = (r : EReal))
  (hK : ∀ x, ∃ r : ℝ, (V m c main_arg1 : S8x16x1024x64.Idx → Elt Ideal .f32) x = (r : EReal))

include hQ in
theorem qfin (t : Fin cfg0.N) : ∀ i d, ∃ r : ℝ, brows (iblk m c 0 t) i d = (r : EReal) := by
  rw [qrows]; exact fun i d => hQ _

include hK in
theorem kfin (t : Fin cfg0.N) : ∀ i d, ∃ r : ℝ, brows (iblk m c 1 t) i d = (r : EReal) := by
  rw [krows]; exact fun i d => hK _

include hQ hK in
/-- Point t writes back block t of the attention array. -/
theorem flushed5_eq (t : Fin cfg0.N) :
    (dats m 0 c).flushed 5 t = ((cfg0.win 5).blk t).view.read (Elt Ideal)
      (attnArr (V m c main_arg0) (V m c main_arg1) (V m c main_arg3)) := by
  obtain ⟨-, -, -, -, -, ⟨e0, e1, e2, e3⟩⟩ := idx_facts t
  rw [Value.flushed5]
  unfold out0_5
  simp only [View.ld_unit_zero (S := S1x1x1024x64) hz, View.ld_unit_zero (S := S1x1x1024x1024) hz]
  funext y
  show View.canon ([⟨r0_1, k0_pay2 (k0_pay3 (iblk m c 0 t) (iblk m c 1 t) (iblk m c 3 t))⟩] : List (View.Piece (Elt Ideal) S1x1x1024x1024 .f32)) y
    = attnArr (V m c main_arg0) (V m c main_arg1) (V m c main_arg3) (((cfg0.win 5).blk t).view.emb y)
  refine (Value.canon5_eq (iblk m c 0 t) (iblk m c 1 t) (iblk m c 3 t) y).trans ?_
  refine (block_attn (iblk m c 0 t) (iblk m c 1 t) (iblk m c 3 t) (qfin m c hQ t) (kfin m c hK t) y).trans ?_
  rw [qrows, krows, wmask]
  have hy0 : (y 0).val < 1 := (y 0).isLt
  have hy1 : (y 1).val < 1 := (y 1).isLt
  have he : ((cfg0.win 5).blk t).view.emb y
      = ix4 (pb t) (ph t) (⟨(y 2).val, (y 2).isLt⟩ : Fin 1024) (⟨(y 3).val, (y 3).isLt⟩ : Fin 1024) := by
    funext a
    apply Fin.ext
    match a with
    | ⟨0, _⟩ => show win0_5.index t (0 : Fin 4) * 1 + 1 * (y 0).val = t.val / 16; omega
    | ⟨1, _⟩ => show win0_5.index t (1 : Fin 4) * 1 + 1 * (y 1).val = t.val % 16; omega
    | ⟨2, _⟩ => show win0_5.index t (2 : Fin 4) * 1024 + 1 * (y 2).val = (y 2).val; omega
    | ⟨3, _⟩ => show win0_5.index t (3 : Fin 4) * 1024 + 1 * (y 3).val = (y 3).val; omega
  rw [he, attnArr_ix4]

include hQ hK in
/-- Point t writes back block t of the output array. -/
theorem flushed4_eq (t : Fin cfg0.N) :
    (dats m 0 c).flushed 4 t = ((cfg0.win 4).blk t).view.read (Elt Ideal)
      (outArr (V m c main_arg0) (V m c main_arg1) (V m c main_arg2) (V m c main_arg3)) := by
  obtain ⟨-, -, -, -, ⟨e0, e1, e2, e3⟩, -⟩ := idx_facts t
  rw [Value.flushed4]
  unfold out0_4
  simp only [View.ld_unit_zero (S := S1x1x1024x64) hz, View.ld_unit_zero (S := S1x1x1024x1024) hz]
  funext y
  show View.canon ([⟨r0_0, k0_pay1 (k0_pay4 (iblk m c 0 t) (iblk m c 1 t) (iblk m c 2 t) (iblk m c 3 t))⟩] : List (View.Piece (Elt Ideal) S1x1x1024x64 .f32)) y
    = outArr (V m c main_arg0) (V m c main_arg1) (V m c main_arg2) (V m c main_arg3) (((cfg0.win 4).blk t).view.emb y)
  refine (Value.canon4_eq (iblk m c 0 t) (iblk m c 1 t) (iblk m c 2 t) (iblk m c 3 t) y).trans ?_
  refine (block_out (iblk m c 0 t) (iblk m c 1 t) (iblk m c 2 t) (iblk m c 3 t) (qfin m c hQ t) (kfin m c hK t) y).trans ?_
  rw [qrows, krows, vrows, wmask]
  have hy0 : (y 0).val < 1 := (y 0).isLt
  have hy1 : (y 1).val < 1 := (y 1).isLt
  have he : ((cfg0.win 4).blk t).view.emb y
      = ix4 (pb t) (ph t) (⟨(y 2).val, (y 2).isLt⟩ : Fin 1024) (⟨(y 3).val, (y 3).isLt⟩ : Fin 64) := by
    funext a
    apply Fin.ext
    match a with
    | ⟨0, _⟩ => show win0_4.index t (0 : Fin 4) * 1 + 1 * (y 0).val = t.val / 16; omega
    | ⟨1, _⟩ => show win0_4.index t (1 : Fin 4) * 1 + 1 * (y 1).val = t.val % 16; omega
    | ⟨2, _⟩ => show win0_4.index t (2 : Fin 4) * 1024 + 1 * (y 2).val = (y 2).val; omega
    | ⟨3, _⟩ => show win0_4.index t (3 : Fin 4) * 64 + 1 * (y 3).val = (y 3).val; omega
  rw [he, outArr_ix4]

/-! ## The blocks tile the results -/

/-- An index is in point t's block of the attention array iff each coordinate is in the block's range on its axis. -/
theorem mem_blk5 (t : Fin cfg0.N) (x : S8x16x1024x1024.Idx) :
    x ∈ ((cfg0.win 5).blk t).view.set ↔ ∀ a : Fin 4, win0_5.index t a * S1x1x1024x1024.size a ≤ (x a).val ∧ (x a).val < win0_5.index t a * S1x1x1024x1024.size a + S1x1x1024x1024.size a := by
  show x ∈ ((View.whole main_v0_1).slice (win0_5.rect t)).set ↔ _
  rw [View.set_slice_whole, Rect.mem_set_unit]
  exact Iff.rfl

theorem mem_blk4 (t : Fin cfg0.N) (x : S8x16x1024x64.Idx) :
    x ∈ ((cfg0.win 4).blk t).view.set ↔ ∀ a : Fin 4, win0_4.index t a * S1x1x1024x64.size a ≤ (x a).val ∧ (x a).val < win0_4.index t a * S1x1x1024x64.size a + S1x1x1024x64.size a := by
  show x ∈ ((View.whole main_v0_0).slice (win0_4.rect t)).set ↔ _
  rw [View.set_slice_whole, Rect.mem_set_unit]
  exact Iff.rfl

/-- Entry (b, h, ·, ·) of the attention array lies in the block of point 16 b + h. -/
theorem cover5 (x : S8x16x1024x1024.Idx) :
    ∃ t : Fin cfg0.N, (cfg0.win 5).flush t = true ∧ x ∈ ((cfg0.win 5).blk t).view.set := by
  have h0 : (x 0).val < 8 := (x 0).isLt
  have h1 : (x 1).val < 16 := (x 1).isLt
  have h2 : (x 2).val < 1024 := (x 2).isLt
  have h3 : (x 3).val < 1024 := (x 3).isLt
  let t : Fin cfg0.N := ⟨(x 0).val * 16 + (x 1).val, by rw [show cfg0.N = 128 from N_0]; omega⟩
  have ht : t.val = (x 0).val * 16 + (x 1).val := rfl
  obtain ⟨-, -, -, -, -, ⟨e0, e1, e2, e3⟩⟩ := idx_facts t
  refine ⟨t, flush0_5 t, ?_⟩
  rw [mem_blk5]
  intro a
  match a with
  | ⟨0, _⟩ => show win0_5.index t (0 : Fin 4) * 1 ≤ (x 0).val ∧ (x 0).val < win0_5.index t (0 : Fin 4) * 1 + 1; omega
  | ⟨1, _⟩ => show win0_5.index t (1 : Fin 4) * 1 ≤ (x 1).val ∧ (x 1).val < win0_5.index t (1 : Fin 4) * 1 + 1; omega
  | ⟨2, _⟩ => show win0_5.index t (2 : Fin 4) * 1024 ≤ (x 2).val ∧ (x 2).val < win0_5.index t (2 : Fin 4) * 1024 + 1024; omega
  | ⟨3, _⟩ => show win0_5.index t (3 : Fin 4) * 1024 ≤ (x 3).val ∧ (x 3).val < win0_5.index t (3 : Fin 4) * 1024 + 1024; omega

theorem cover4 (x : S8x16x1024x64.Idx) :
    ∃ t : Fin cfg0.N, (cfg0.win 4).flush t = true ∧ x ∈ ((cfg0.win 4).blk t).view.set := by
  have h0 : (x 0).val < 8 := (x 0).isLt
  have h1 : (x 1).val < 16 := (x 1).isLt
  have h2 : (x 2).val < 1024 := (x 2).isLt
  have h3 : (x 3).val < 64 := (x 3).isLt
  let t : Fin cfg0.N := ⟨(x 0).val * 16 + (x 1).val, by rw [show cfg0.N = 128 from N_0]; omega⟩
  have ht : t.val = (x 0).val * 16 + (x 1).val := rfl
  obtain ⟨-, -, -, -, ⟨e0, e1, e2, e3⟩, -⟩ := idx_facts t
  refine ⟨t, flush0_4 t, ?_⟩
  rw [mem_blk4]
  intro a
  match a with
  | ⟨0, _⟩ => show win0_4.index t (0 : Fin 4) * 1 ≤ (x 0).val ∧ (x 0).val < win0_4.index t (0 : Fin 4) * 1 + 1; omega
  | ⟨1, _⟩ => show win0_4.index t (1 : Fin 4) * 1 ≤ (x 1).val ∧ (x 1).val < win0_4.index t (1 : Fin 4) * 1 + 1; omega
  | ⟨2, _⟩ => show win0_4.index t (2 : Fin 4) * 1024 ≤ (x 2).val ∧ (x 2).val < win0_4.index t (2 : Fin 4) * 1024 + 1024; omega
  | ⟨3, _⟩ => show win0_4.index t (3 : Fin 4) * 64 ≤ (x 3).val ∧ (x 3).val < win0_4.index t (3 : Fin 4) * 64 + 64; omega

include hQ hK in
/-- The attention array after the run. -/
theorem final5 : (dats m 0 c).arrAt 5 cfg0.N = attnArr (V m c main_arg0) (V m c main_arg1) (V m c main_arg3) :=
  (dats m 0 c).arrAt_eq_of_cover 5 (attnArr (V m c main_arg0) (V m c main_arg1) (V m c main_arg3))
    (fun t _ => flushed5_eq m c hQ hK t) cover5

include hQ hK in
/-- The output array after the run. -/
theorem final4 : (dats m 0 c).arrAt 4 cfg0.N = outArr (V m c main_arg0) (V m c main_arg1) (V m c main_arg2) (V m c main_arg3) :=
  (dats m 0 c).arrAt_eq_of_cover 4 (outArr (V m c main_arg0) (V m c main_arg1) (V m c main_arg2) (V m c main_arg3))
    (fun t _ => flushed4_eq m c hQ hK t) cover4

end Finite

/-! ## The run, read -/

/-- With finite q and k on every device, the kernel's run ends with the two results at the array functions of its
    arguments, the arguments unchanged. -/
theorem run
    (hQ : ∀ c : Dev nD, ∀ x, ∃ r : ℝ, (m ((c : Thread nD τ).loc main_arg0) : S8x16x1024x64.Idx → Elt Ideal .f32) x = (r : EReal))
    (hK : ∀ c : Dev nD, ∀ x, ∃ r : ℝ, (m ((c : Thread nD τ).loc main_arg1) : S8x16x1024x64.Idx → Elt Ideal .f32) x = (r : EReal)) :
    θ_run defs (onTc (τ := τ) (main (F := Ideal))) ⟨m, fun _ => 0, ρ⟩ fun r => ∀ c : Dev nD,
      r.2.mem ((c : Thread nD τ).loc main_v0_0)
          = outArr (m ((c : Thread nD τ).loc main_arg0)) (m ((c : Thread nD τ).loc main_arg1)) (m ((c : Thread nD τ).loc main_arg2)) (m ((c : Thread nD τ).loc main_arg3))
      ∧ r.2.mem ((c : Thread nD τ).loc main_v0_1)
          = attnArr (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c (hQ c) (hK c)), (h c).2.1.trans (final5 m c (hQ c) (hK c)), (h c).2.2⟩)
    (Value.run_blocks m ρ)

end Cert.KernelIdeal.ArrayValue

end
-- ==== Proof.RefSide.lean ====
/-
  The reference computes the two arrays of Arrays.lean, stage by stage: the batched product of Q and K over the feature
  axis divided by 8, the mask's fill, the row maximum (a fold over the key axis, met once more with −∞, which changes
  nothing), the shifted exponential, the row sum (from 0), the quotient, the second masking, and the batched product
  with V over the key axis.
-/
import proofs.«417815_j53042846105919_3_alg».proof.Proof.Gen.ReferenceIdeal.Read
import proofs.«417815_j53042846105919_3_alg».proof.Proof.Arrays

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe MaskedAttention

variable (x0 x1 x2 : (⟨S8x16x1024x64, .f32⟩ : BufTy).Contents (Elt Ideal))
  (x3 : (⟨S8x1x1024x1024, .i32⟩ : BufTy).Contents (Elt Ideal))

/-! ## Where each stage reads its operand -/

theorem idx_lhs_qk (b : Fin 8) (h : Fin 16) (i j : Fin 1024) (d : Fin 64) :
    lidx_main_v0 (ix4 b h i j) d = ix4 b h i d :=
  funext fun a => Fin.ext (by match a with | ⟨0, _⟩ => rfl | ⟨1, _⟩ => rfl | ⟨2, _⟩ => rfl | ⟨3, _⟩ => rfl)

theorem idx_rhs_qk (b : Fin 8) (h : Fin 16) (i j : Fin 1024) (d : Fin 64) :
    ridx_main_v0 (ix4 b h i j) d = ix4 b h j d :=
  funext fun a => Fin.ext (by match a with | ⟨0, _⟩ => rfl | ⟨1, _⟩ => rfl | ⟨2, _⟩ => rfl | ⟨3, _⟩ => rfl)

theorem idx_mask0 (b : Fin 8) (h : Fin 16) (i j : Fin 1024) :
    idx_main_call0_v1 (ix4 b h i j) = ix4 b (0 : Fin 1) i j :=
  funext fun a => Fin.ext (by match a with | ⟨0, _⟩ => rfl | ⟨1, _⟩ => rfl | ⟨2, _⟩ => rfl | ⟨3, _⟩ => rfl)

theorem idx_mask1 (b : Fin 8) (h : Fin 16) (i j : Fin 1024) :
    idx_main_call1_v1 (ix4 b h i j) = ix4 b (0 : Fin 1) i j :=
  funext fun a => Fin.ext (by match a with | ⟨0, _⟩ => rfl | ⟨1, _⟩ => rfl | ⟨2, _⟩ => rfl | ⟨3, _⟩ => rfl)

theorem idx_row_max (b : Fin 8) (h : Fin 16) (i j : Fin 1024) :
    idx_main_v9 (idx_main_v10 (ix4 b h i j)) = ix3 b h i :=
  funext fun a => Fin.ext (by match a with | ⟨0, _⟩ => rfl | ⟨1, _⟩ => rfl | ⟨2, _⟩ => rfl)

theorem idx_row_sum (b : Fin 8) (h : Fin 16) (i j : Fin 1024) :
    idx_main_v14 (idx_main_v15 (ix4 b h i j)) = ix3 b h i :=
  funext fun a => Fin.ext (by match a with | ⟨0, _⟩ => rfl | ⟨1, _⟩ => rfl | ⟨2, _⟩ => rfl)

theorem idx_sum_term (b : Fin 8) (h : Fin 16) (i j : Fin 1024) :
    idx_main_v13 (ix3 b h i) j = ix4 b h i j :=
  funext fun a => Fin.ext (by match a with | ⟨0, _⟩ => rfl | ⟨1, _⟩ => rfl | ⟨2, _⟩ => rfl | ⟨3, _⟩ => rfl)

theorem idx_lhs_av (b : Fin 8) (h : Fin 16) (i : Fin 1024) (d : Fin 64) (j : Fin 1024) :
    lidx_main_v18 (ix4 b h i d) j = ix4 b h i j :=
  funext fun a => Fin.ext (by match a with | ⟨0, _⟩ => rfl | ⟨1, _⟩ => rfl | ⟨2, _⟩ => rfl | ⟨3, _⟩ => rfl)

theorem idx_rhs_av (b : Fin 8) (h : Fin 16) (i : Fin 1024) (d : Fin 64) (j : Fin 1024) :
    ridx_main_v18 (ix4 b h i d) j = ix4 b h j d :=
  funext fun a => Fin.ext (by match a with | ⟨0, _⟩ => rfl | ⟨1, _⟩ => rfl | ⟨2, _⟩ => rfl | ⟨3, _⟩ => rfl)

/-- The row (b, h, i) with the key coordinate j put back is (b, h, i, j). -/
theorem lift_key (hr : S8x16x1024x1024.Reduces [3] S8x16x1024) (b : Fin 8) (h : Fin 16) (i : Fin 1024)
    (j : Fin (S8x16x1024x1024.size 3)) : hr.lift (ix3 b h i) j = ix4 b h i (⟨j.val, j.isLt⟩ : Fin 1024) := by
  funext c; apply Fin.ext
  fin_cases c <;> rfl

/-! ## The stages -/

/-- The first masked operand: the scaled score where the mask keeps the pair, the fill elsewhere. -/
theorem score_eq (b : Fin 8) (h : Fin 16) (i j : Fin 1024) :
    val_main_v5 (F := Ideal) x0 x1 x3 (ix4 b h i j) = score (rows x0 b h) (rows x1 b h) (maskOf x3 b) i j := by
  rw [val_main_v5_apply, val_main_call0_v1_apply, val_main_v4_apply, val_main_v3_apply, val_main_c_apply,
    val_main_v2_apply, val_main_v0_apply, val_main_v1_apply, val_main_cst_apply, val_main_call0_v2_apply,
    val_main_call0_v0_apply, val_main_cst_0_apply, idx_mask0]
  simp only [idx_lhs_qk, idx_rhs_qk]
  rfl

/-- The row maximum. -/
theorem rowMax_eq (b : Fin 8) (h : Fin 16) (i : Fin 1024) :
    val_main_v8 (F := Ideal) x0 x1 x3 (ix3 b h i) = rowMax (rows x0 b h) (rows x1 b h) (maskOf x3 b) i := by
  have hr : S8x16x1024x1024.Reduces [3] S8x16x1024 := by decide
  rw [val_main_v8_apply, val_main_v7_apply, val_main_cst_2_apply]
  show max (Ideal.ofBits .f32 0xFF800000#32) (val_main_v6 (F := Ideal) x0 x1 x3 (ix3 b h i)) = _
  rw [max_negInf]
  unfold val_main_v6
  rw [Host.reduce_eq_fold_single FloatOps.maximumf _ _ reducesTo_S8x16x1024x1024_S8x16x1024_d3 hr h_S_]
  unfold rowMax
  have hf : (val_main_v5 (F := Ideal) x0 x1 x3 ∘ hr.lift (ix3 b h i))
      = fun j : Fin 1024 => score (rows x0 b h) (rows x1 b h) (maskOf x3 b) i j :=
    funext fun j => by
      show val_main_v5 (F := Ideal) x0 x1 x3 (hr.lift (ix3 b h i) j) = _
      rw [lift_key hr b h i j, score_eq]
      rfl
  rw [hf]
  rfl

/-- The shifted exponential. -/
theorem expo_eq (b : Fin 8) (h : Fin 16) (i j : Fin 1024) :
    val_main_v12 (F := Ideal) x0 x1 x3 (ix4 b h i j) = expo (rows x0 b h) (rows x1 b h) (maskOf x3 b) i j := by
  rw [val_main_v12_apply, val_main_v11_apply, val_main_v10_apply, val_main_v9_apply, idx_row_max, rowMax_eq, score_eq]
  rfl

/-- The row sum. -/
theorem denom_eq (b : Fin 8) (h : Fin 16) (i : Fin 1024) :
    val_main_v13 (F := Ideal) x0 x1 x3 (ix3 b h i) = denom (rows x0 b h) (rows x1 b h) (maskOf x3 b) i := by
  rw [val_main_v13_apply, val_main_cst_3_apply]
  show Ideal.ofBits .f32 0x00000000#32 + _ = _
  rw [Ideal.ofBits_zero_f32, zero_add]
  unfold denom
  exact Finset.sum_congr rfl fun j _ => by rw [idx_sum_term, expo_eq]

/-- The attention array's entry. -/
theorem attn_eq (b : Fin 8) (h : Fin 16) (i j : Fin 1024) :
    val_main_v17 (F := Ideal) x0 x1 x3 (ix4 b h i j) = attn (rows x0 b h) (rows x1 b h) (maskOf x3 b) i j := by
  rw [val_main_v17_apply, val_main_call1_v1_apply, val_main_v4_apply, val_main_v3_apply, val_main_c_apply,
    val_main_v16_apply, val_main_v15_apply, val_main_v14_apply, idx_row_sum, denom_eq, expo_eq,
    val_main_call1_v2_apply, val_main_call1_v0_apply, val_main_cst_4_apply, idx_mask1]
  rfl

/-- The reference's second result is the attention array. -/
theorem attnArr_eq : val_main_v17 (F := Ideal) x0 x1 x3 = attnArr x0 x1 x3 := by
  funext x
  obtain ⟨b, h, i, j, rfl⟩ : ∃ (b : Fin 8) (h : Fin 16) (i : Fin 1024) (j : Fin 1024), x = ix4 b h i j :=
    ⟨x 0, x 1, x 2, x 3, eq_ix4 x⟩
  rw [attn_eq, attnArr_ix4]

/-- The output array's entry. -/
theorem out_eq (b : Fin 8) (h : Fin 16) (i : Fin 1024) (d : Fin 64) :
    val_main_v18 (F := Ideal) x0 x1 x2 x3 (ix4 b h i d)
      = out (rows x0 b h) (rows x1 b h) (rows x2 b h) (maskOf x3 b) i d := by
  rw [val_main_v18_apply]
  unfold out
  exact Finset.sum_congr rfl fun j _ => by rw [idx_lhs_av, idx_rhs_av, attn_eq]; rfl

/-- The reference's first result is the output array. -/
theorem outArr_eq : val_main_v18 (F := Ideal) x0 x1 x2 x3 = outArr x0 x1 x2 x3 := by
  funext x
  obtain ⟨b, h, i, d, rfl⟩ : ∃ (b : Fin 8) (h : Fin 16) (i : Fin 1024) (d : Fin 64), x = ix4 b h i d :=
    ⟨x 0, x 1, x 2, x 3, eq_ix4 x⟩
  rw [out_eq, outArr_ix4]

end Cert.ReferenceIdeal.RefValue

end
-- ==== Proof.PreFinite.lean ====
/-
  The precondition read back: it is the conjunction, over the three float operands, of "every entry's absolute value is
  below +∞". An extended real whose absolute value max(x, −x) is below +∞ is neither infinity, so it is a real number.
-/
import proofs.«417815_j53042846105919_3_alg».proof.Pre_finite_inputs
import proofs.«417815_j53042846105919_3_alg».proof.Proof.Gen.Pre_finite_inputs
import Idealize.ShloMosaic.Lib.ReduceAll
import Idealize.ShloMosaic.Lib.ValueIdx
import Idealize.ShloMosaic.PureOps.Ideal

noncomputable section

namespace Cert.Pre_finite_inputs.Decode

open Idealize.ShloMosaic Cert.Pre_finite_inputs

instance : Subsingleton S_.Idx := ⟨fun a b => funext fun d => d.elim0⟩

/-- An extended real whose absolute value is below +∞ is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- Under the precondition every entry of the three float operands is a real number. -/
theorem finite_of_pre (a0 a1 a2 : FVec Ideal S8x16x1024x64 .f32) (a3 : IVec S8x1x1024x1024 32)
    (h : fn (F := Ideal) a0 a1 a2 a3 = fun _ => 1#1) :
    (∀ x, ∃ r : ℝ, a0 x = (r : EReal)) ∧ (∀ x, ∃ r : ℝ, a1 x = (r : EReal)) ∧ (∀ x, ∃ r : ℝ, a2 x = (r : EReal)) := by
  have h0 := congrFun h ValueIdx.ix0
  dsimp only [fn] at h0
  obtain ⟨h01, h2⟩ := IntOp.andi_eq_one.1 h0
  obtain ⟨h0', h1⟩ := IntOp.andi_eq_one.1 h01
  refine ⟨fun x => ?_, fun x => ?_, fun x => ?_⟩
  · have e := Host.reduce_andi_all _ _ _ _ _ h0' x
    exact real_of_abs_lt _ e
  · have e := Host.reduce_andi_all _ _ _ _ _ h1 x
    exact real_of_abs_lt _ e
  · have e := Host.reduce_andi_all _ _ _ _ _ h2 x
    exact real_of_abs_lt _ e

end Cert.Pre_finite_inputs.Decode

end
-- ==== Proof.lean ====
/-
  Scaled dot-product attention with a mask applied twice, one grid point per (batch, head), against its array-level
  reference: equal over the extended reals.

  Per head, with q, k, v the head's 1024 × 64 rows and keep(i, j) the batch's mask bit, both programs compute

    s(i, j) = keep ? (Σ_d q(i, d) k(j, d)) / 8 : −10⁹,   a(i, j) = keep ? exp(s(i, j) − max_j s) / Σ_j exp(s(i, j) − max_j s) : 0,
    o(i, d) = Σ_j a(i, j) v(j, d),

  and return (o, a). The kernel spells the scale as a product with 1/8 — an exact binary fraction, so the product IS the
  quotient by 8 on every extended real — and the normalisation as a product with the row's reciprocal, which is the
  quotient once the row's normaliser is not zero. Finite q and k make every score, and so every row maximum, a real
  number; every exponential is then positive and the normaliser a positive real (Proof/Softmax.lean). The narrowing
  of both operands of the kernel's second matrix product is the identity here, the reference's extra maximum with −∞
  changes nothing, and its row sum starts from 0.

  Proof/RefSide.lean reads the reference's stages at an index; Proof/KernelSide.lean the kernel body's values for one
  grid point; Proof/Blocks.lean places the 128 written blocks in the two result arrays; Proof/PreFinite.lean reads the
  precondition as "every float entry is a real number". Only q and k need to be finite for the two programs to agree.
-/
import proofs.«417815_j53042846105919_3_alg».proof.Defs
import proofs.«417815_j53042846105919_3_alg».proof.Proof.Gen.Kernel
import proofs.«417815_j53042846105919_3_alg».proof.Proof.Gen.Kernel.Skeleton
import proofs.«417815_j53042846105919_3_alg».proof.Proof.Gen.Kernel.Launch
import proofs.«417815_j53042846105919_3_alg».proof.Proof.Gen.Kernel.Points
import proofs.«417815_j53042846105919_3_alg».proof.Proof.Gen.Kernel.Frame
import proofs.«417815_j53042846105919_3_alg».proof.Proof.Gen.KernelIdeal
import proofs.«417815_j53042846105919_3_alg».proof.Proof.Gen.KernelIdeal.Skeleton
import proofs.«417815_j53042846105919_3_alg».proof.Proof.Gen.KernelIdeal.Launch
import proofs.«417815_j53042846105919_3_alg».proof.Proof.Gen.KernelIdeal.Points
import proofs.«417815_j53042846105919_3_alg».proof.Proof.Gen.KernelIdeal.Frame
import proofs.«417815_j53042846105919_3_alg».proof.Proof.Gen.ReferenceIdeal
import proofs.«417815_j53042846105919_3_alg».proof.Proof.Gen.Pre_finite_inputs
import proofs.«417815_j53042846105919_3_alg».proof.Proof.Gen.KernelIdeal.Value
import proofs.«417815_j53042846105919_3_alg».proof.Proof.Gen.ReferenceIdeal.Run
import proofs.«417815_j53042846105919_3_alg».proof.Proof.Gen.ReferenceIdeal.Read
import proofs.«417815_j53042846105919_3_alg».proof.Proof.Blocks
import proofs.«417815_j53042846105919_3_alg».proof.Proof.RefSide
import proofs.«417815_j53042846105919_3_alg».proof.Proof.PreFinite
import Idealize.ShloMosaic.Adequacy
import Idealize.ShloMosaic.Init

noncomputable section

namespace Cert.Proof

open Idealize.ShloMosaic Idealize.ShloMosaic.TcCoe Idealize.SL.Sem MaskedAttention

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of array operations: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From arguments that agree, with finite float entries, both programs end with the output array and the attention
    array of Proof/Arrays.lean. -/
theorem algebraic : Cert.algebraic_KernelIdeal_ReferenceIdeal := by
  intro m ρ m' ρ' hpre hagree
  have hfin := fun c => Cert.Pre_finite_inputs.Decode.finite_of_pre _ _ _ _ (hpre c)
  refine ⟨fun c => outArr (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)),
    fun c => attnArr (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3)),
    Cert.KernelIdeal.ArrayValue.run m ρ (fun c => (hfin c).1) (fun c => (hfin c).2.1), ?_⟩
  refine (θ_run Cert.ReferenceIdeal.defs _ _).mono (fun _ h c => ?_) (Cert.ReferenceIdeal.Value.run (F := Ideal) m' ρ')
  obtain ⟨a0, a1, a2, a3⟩ := hagree c
  refine ⟨(h c).1.trans ?_, (h c).2.1.trans ?_, (h c).2.2⟩
  · refine (Cert.ReferenceIdeal.Read.val_main_v18_eq (F := Ideal) _ _ _ _).trans ?_
    rw [Cert.ReferenceIdeal.RefValue.outArr_eq, a0, a1, a2, a3]
  · refine (Cert.ReferenceIdeal.Read.val_main_v17_eq (F := Ideal) _ _ _).trans ?_
    rw [Cert.ReferenceIdeal.RefValue.attnArr_eq, a0, a1, a3]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
